-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4x1024 : Shape := ⟨4, ![8, 2048, 4, 1024]⟩
abbrev S8x2048x4x4 : Shape := ⟨4, ![8, 2048, 4, 4]⟩
abbrev S8x2048x1024 : Shape := ⟨3, ![8, 2048, 1024]⟩
abbrev S8x2048x4 : Shape := ⟨3, ![8, 2048, 4]⟩
abbrev S_ : Shape := ⟨0, ![]⟩

class Facts : Prop where
  bcast_S_S8x2048x4x1024 : S_.BroadcastsInDim S8x2048x4x1024 (![] : Fin 0 → Fin S8x2048x4x1024.rank)
  reducesTo_S8x2048x4x1024_S_d0_1_2_3 : S8x2048x4x1024.ReducesTo [0, 1, 2, 3] S_
  h_S_ : 0 < S_.numel
  bcast_S_S8x2048x4x4 : S_.BroadcastsInDim S8x2048x4x4 (![] : Fin 0 → Fin S8x2048x4x4.rank)
  reducesTo_S8x2048x4x4_S_d0_1_2_3 : S8x2048x4x4.ReducesTo [0, 1, 2, 3] S_
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x2048x4 : S_.BroadcastsInDim S8x2048x4 (![] : Fin 0 → Fin S8x2048x4.rank)
  reducesTo_S8x2048x4_S_d0_1_2 : S8x2048x4.ReducesTo [0, 1, 2] S_

variable [Facts]

def fn_part1 {F : FTy → Type} [FloatOps F] (main_v13 : IVec S_ 1) (main_v16 : IVec S8x2048x4 1) : IVec S_ 1 :=
  let main_c_5 : IVec S_ 1 := constantI S_ 1 1#1
  let main_v17 : IVec S_ 1 := (fun x v => Host.reduce IntOp.andi x v reducesTo_S8x2048x4_S_d0_1_2 h_S_) main_v16 main_c_5
  let main_v18 : IVec S_ 1 := andi main_v13 main_v17
  main_v18

def fn {F : FTy → Type} [FloatOps F] (main_arg0 : FVec F S8x2048x4x1024 .f32) (main_arg1 : FVec F S8x2048x4x4 .f32) (main_arg2 : FVec F S8x2048x1024 .f32) (main_arg3 : FVec F S8x2048x4 .f32) : IVec S_ 1 :=
  let main_v0 : FVec F S8x2048x4x1024 .f32 := Host.absf main_arg0
  let main_cst : FVec F S_ .f32 := constant S_ .f32 0x7F800000#32
  let main_v1 : FVec F S8x2048x4x1024 .f32 := broadcastInDim S8x2048x4x1024 ![] bcast_S_S8x2048x4x1024 main_cst
  let main_v2 : IVec S8x2048x4x1024 1 := cmpf .olt main_v0 main_v1
  let main_c : IVec S_ 1 := constantI S_ 1 1#1
  let main_v3 : IVec S_ 1 := (fun x v => Host.reduce IntOp.andi x v reducesTo_S8x2048x4x1024_S_d0_1_2_3 h_S_) main_v2 main_c
  let main_v4 : FVec F S8x2048x4x4 .f32 := Host.absf main_arg1
  let main_cst_0 : FVec F S_ .f32 := constant S_ .f32 0x7F800000#32
  let main_v5 : FVec F S8x2048x4x4 .f32 := broadcastInDim S8x2048x4x4 ![] bcast_S_S8x2048x4x4 main_cst_0
  let main_v6 : IVec S8x2048x4x4 1 := cmpf .olt main_v4 main_v5
  let main_c_1 : IVec S_ 1 := constantI S_ 1 1#1
  let main_v7 : IVec S_ 1 := (fun x v => Host.reduce IntOp.andi x v reducesTo_S8x2048x4x4_S_d0_1_2_3 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S8x2048x4 .f32 := Host.absf main_arg3
  let main_cst_4 : FVec F S_ .f32 := constant S_ .f32 0x7F800000#32
  let main_v15 : FVec F S8x2048x4 .f32 := broadcastInDim S8x2048x4 ![] bcast_S_S8x2048x4 main_cst_4
  let main_v16 : IVec S8x2048x4 1 := cmpf .olt main_v14 main_v15
  fn_part1 (F := F) main_v13 main_v16
-- ==== Kernel.lean ====
abbrev S8x2048x4x1024 : Shape := ⟨4, ![8, 2048, 4, 1024]⟩
abbrev S8x2048x4x4 : Shape := ⟨4, ![8, 2048, 4, 4]⟩
abbrev S8x2048x1024 : Shape := ⟨3, ![8, 2048, 1024]⟩
abbrev S8x2048x4 : Shape := ⟨3, ![8, 2048, 4]⟩
abbrev S1x128x4x1024 : Shape := ⟨4, ![1, 128, 4, 1024]⟩
abbrev S1x128x4x4 : Shape := ⟨4, ![1, 128, 4, 4]⟩
abbrev S1x128x1024 : Shape := ⟨3, ![1, 128, 1024]⟩
abbrev S1x128x4 : Shape := ⟨3, ![1, 128, 4]⟩
abbrev S128x4x1024 : Shape := ⟨3, ![128, 4, 1024]⟩
abbrev S128x4x4 : Shape := ⟨3, ![128, 4, 4]⟩
abbrev S128x1024 : Shape := ⟨2, ![128, 1024]⟩
abbrev S128x1x1024 : Shape := ⟨3, ![128, 1, 1024]⟩
abbrev S128x4 : Shape := ⟨2, ![128, 4]⟩
abbrev S128x4x1 : Shape := ⟨3, ![128, 4, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x4x1024, .f32⟩
  | .hbm, ⟨1, _⟩ => ⟨S8x2048x4x4, .f32⟩
  | .hbm, ⟨2, _⟩ => ⟨S8x2048x1024, .f32⟩
  | .hbm, ⟨3, _⟩ => ⟨S8x2048x4, .f32⟩
  | .hbm, ⟨4, _⟩ => ⟨S8x2048x4x1024, .f32⟩
  | .local _ .vmem, ⟨0, _⟩ => ⟨S1x128x4x1024, .f32⟩
  | .local _ .vmem, ⟨1, _⟩ => ⟨S1x128x4x1024, .f32⟩
  | .local _ .vmem, ⟨2, _⟩ => ⟨S1x128x4x4, .f32⟩
  | .local _ .vmem, ⟨3, _⟩ => ⟨S1x128x4x4, .f32⟩
  | .local _ .vmem, ⟨4, _⟩ => ⟨S1x128x1024, .f32⟩
  | .local _ .vmem, ⟨5, _⟩ => ⟨S1x128x1024, .f32⟩
  | .local _ .vmem, ⟨6, _⟩ => ⟨S1x128x4, .f32⟩
  | .local _ .vmem, ⟨7, _⟩ => ⟨S1x128x4, .f32⟩
  | .local _ .vmem, ⟨8, _⟩ => ⟨S1x128x4x1024, .f32⟩
  | .local _ .vmem, ⟨9, _⟩ => ⟨S1x128x4x1024, .f32⟩
  | _, _ => ⟨S8x2048x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x128x4x1024_S1x128x4x1024_0_0_0_0 : ∀ a, (![0, 0, 0, 0] : Fin 4 → Nat) a + S1x128x4x1024.size a ≤ S1x128x4x1024.size a
  h_S1x128x4x1024 : 0 < S1x128x4x1024.numel
  shapeCasts_S1x128x4x1024_S128x4x1024 : S1x128x4x1024.ShapeCasts S128x4x1024
  inb_S1x128x4x4_S1x128x4x4_0_0_0_0 : ∀ a, (![0, 0, 0, 0] : Fin 4 → Nat) a + S1x128x4x4.size a ≤ S1x128x4x4.size a
  h_S1x128x4x4 : 0 < S1x128x4x4.numel
  shapeCasts_S1x128x4x4_S128x4x4 : S1x128x4x4.ShapeCasts S128x4x4
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S128x1x1024 : S128x1024.ShapeCasts S128x1x1024
  shapeCasts_S128x1x1024_S128x1x1024 : S128x1x1024.ShapeCasts S128x1x1024
  broadcasts_S128x1x1024_S128x4x1024 : S128x1x1024.Broadcasts S128x4x1024
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  shapeCasts_S128x4_S128x4x1 : S128x4.ShapeCasts S128x4x1
  shapeCasts_S128x4x1_S128x4x1 : S128x4x1.ShapeCasts S128x4x1
  broadcasts_S128x4x1_S128x4x1024 : S128x4x1.Broadcasts S128x4x1024
  shapeCasts_S128x4x1024_S1x128x4x1024 : S128x4x1024.ShapeCasts S1x128x4x1024
  dot_S128x4x4_S128x4x1024_S128x4x1024_2_1_1_2_0_0_wf : DotDims.WF S128x4x4 S128x4x1024 S128x4x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4x1024.size a ≤ S8x2048x4x1024.size a
  hwx0_0 : ∀ i : grid0.Coords, EltTy.bits .f32 = 32 ∨ (Rect.block (s := S8x2048x4x1024) S1x128x4x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4x4.size a ≤ S8x2048x4x4.size a
  hwx0_1 : ∀ i : grid0.Coords, EltTy.bits .f32 = 32 ∨ (Rect.block (s := S8x2048x4x4) S1x128x4x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S8x2048x1024.size a
  hwx0_2 : ∀ i : grid0.Coords, EltTy.bits .f32 = 32 ∨ (Rect.block (s := S8x2048x1024) S1x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x4.size a ≤ S8x2048x4.size a
  hwx0_3 : ∀ i : grid0.Coords, EltTy.bits .f32 = 32 ∨ (Rect.block (s := S8x2048x4) S1x128x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4x1024.size a ≤ S8x2048x4x1024.size a
  hwx0_4 : ∀ i : grid0.Coords, EltTy.bits .f32 = 32 ∨ (Rect.block (s := S8x2048x4x1024) S1x128x4x1024.size (cc0_transform_4 i) (hinb0_4 i)).WholeWords (EltTy.packing .f32)

variable [Facts₀]

def dot_S128x4x4_S128x4x1024_S128x4x1024_2_1_1_2_0_0 : DotDims S128x4x4 S128x4x1024 S128x4x1024 where
  lhsContracting := [2]
  rhsContracting := [1]
  lhsNonContracting := [1]
  rhsNonContracting := [2]
  lhsBatch := [0]
  rhsBatch := [0]
  wf := dot_S128x4x4_S128x4x1024_S128x4x1024_2_1_1_2_0_0_wf

abbrev win0_0 : Pipeline.Window sig grid0 :=
  Pipeline.Window.ofSpec (Memref.whole main_arg0) S1x128x4x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x4x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x4x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x4x1024 : Shape := ⟨4, ![8, 2048, 4, 1024]⟩
abbrev S8x2048x4x4 : Shape := ⟨4, ![8, 2048, 4, 4]⟩
abbrev S8x2048x1024 : Shape := ⟨3, ![8, 2048, 1024]⟩
abbrev S8x2048x4 : Shape := ⟨3, ![8, 2048, 4]⟩
abbrev S8x2048x1x1024 : Shape := ⟨4, ![8, 2048, 1, 1024]⟩
abbrev S8x2048x4x1 : Shape := ⟨4, ![8, 2048, 4, 1]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4x1024, .f32⟩
  | .hbm, ⟨1, _⟩ => ⟨S8x2048x4x4, .f32⟩
  | .hbm, ⟨2, _⟩ => ⟨S8x2048x1024, .f32⟩
  | .hbm, ⟨3, _⟩ => ⟨S8x2048x4, .f32⟩
  | .hbm, ⟨4, _⟩ => ⟨S8x2048x4x1024, .f32⟩
  | .hbm, ⟨5, _⟩ => ⟨S8x2048x1x1024, .f32⟩
  | .hbm, ⟨6, _⟩ => ⟨S8x2048x4x1024, .f32⟩
  | .hbm, ⟨7, _⟩ => ⟨S8x2048x4x1024, .f32⟩
  | .hbm, ⟨8, _⟩ => ⟨S8x2048x4x1, .f32⟩
  | .hbm, ⟨9, _⟩ => ⟨S8x2048x4x1024, .f32⟩
  | .hbm, ⟨10, _⟩ => ⟨S8x2048x4x1024, .f32⟩
  | .hbm, ⟨11, _⟩ => ⟨S8x2048x4x1024, .f32⟩
  | _, _ => ⟨S8x2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S8x2048x1024_S8x2048x1x1024_0_1_3 : S8x2048x1024.BroadcastsInDim S8x2048x1x1024 (![0, 1, 3] : Fin 3 → Fin S8x2048x1x1024.rank)
  bcast_S8x2048x1x1024_S8x2048x4x1024_0_1_2_3 : S8x2048x1x1024.BroadcastsInDim S8x2048x4x1024 (![0, 1, 2, 3] : Fin 4 → Fin S8x2048x4x1024.rank)
  bcast_S8x2048x4_S8x2048x4x1_0_1_2 : S8x2048x4.BroadcastsInDim S8x2048x4x1 (![0, 1, 2] : Fin 3 → Fin S8x2048x4x1.rank)
  bcast_S8x2048x4x1_S8x2048x4x1024_0_1_2_3 : S8x2048x4x1.BroadcastsInDim S8x2048x4x1024 (![0, 1, 2, 3] : Fin 4 → Fin S8x2048x4x1024.rank)
  dot_S8x2048x4x4_S8x2048x4x1024_S8x2048x4x1024_3_2_2_3_01_01_wf : DotDims.WF S8x2048x4x4 S8x2048x4x1024 S8x2048x4x1024 [3] [2] [2] [3] [0, 1] [0, 1]

variable [Facts₀]

def dot_S8x2048x4x4_S8x2048x4x1024_S8x2048x4x1024_3_2_2_3_01_01 : DotDims S8x2048x4x4 S8x2048x4x1024 S8x2048x4x1024 where
  lhsContracting := [3]
  rhsContracting := [2]
  lhsNonContracting := [2]
  rhsNonContracting := [3]
  lhsBatch := [0, 1]
  rhsBatch := [0, 1]
  wf := dot_S8x2048x4x4_S8x2048x4x1024_S8x2048x4x1024_3_2_2_3_01_01_wf

class Facts : Prop extends Facts₀ where

variable [Facts]
-- ==== Proof.StreamMix.lean ====
/-
  The specification both programs are compared with, over the literal shapes of this certificate.

  For a batch entry `b`, a sequence position `s`, a stream `i` and a model coordinate `d`,

      mix (b, s, i, d) = (∑ j < 4, h_res (b, s, i, j) · x (b, s, j, d)) · h_out (b, s, d) + h_post (b, s, i) · x (b, s, i, d)

  on the extended reals: the four streams at a position are mixed by that position's own 4 × 4 matrix, the mix is scaled
  along the model axis, and the position's own stream, scaled by its weight, is added. Only a sum of four products, one
  more product and one sum occur, in the same arrangement on both sides, so no law of the extended reals beyond reading
  each operation at an index is needed, and the inputs' finiteness is never used.
-/
import Idealize.ShloMosaic.PureOps.Ideal.Laws
import Idealize.ShloMosaic.Lib.ValueIdx

noncomputable section

open scoped BigOperators
open Idealize.ShloMosaic Idealize.ShloMosaic.ValueIdx

namespace Cert.StreamMix

/-- The mixed, scaled and residual-added value at coordinates `(b, s, i, d)`. -/
def mixAt (x : FVec Ideal ⟨4, ![8, 2048, 4, 1024]⟩ .f32) (hres : FVec Ideal ⟨4, ![8, 2048, 4, 4]⟩ .f32)
    (hout : FVec Ideal ⟨3, ![8, 2048, 1024]⟩ .f32) (hpost : FVec Ideal ⟨3, ![8, 2048, 4]⟩ .f32)
    (b : Fin 8) (s : Fin 2048) (i : Fin 4) (d : Fin 1024) : EReal :=
  (∑ j : Fin 4, hres (ix4 b s i j) * x (ix4 b s j d)) * hout (ix3 b s d) + hpost (ix3 b s i) * x (ix4 b s i d)

/-- The whole result array: `mixAt` at an index's four coordinates. -/
def mix (x : FVec Ideal ⟨4, ![8, 2048, 4, 1024]⟩ .f32) (hres : FVec Ideal ⟨4, ![8, 2048, 4, 4]⟩ .f32)
    (hout : FVec Ideal ⟨3, ![8, 2048, 1024]⟩ .f32) (hpost : FVec Ideal ⟨3, ![8, 2048, 4]⟩ .f32) :
    FVec Ideal ⟨4, ![8, 2048, 4, 1024]⟩ .f32 :=
  fun k => mixAt x hres hout hpost (k 0) (k 1) (k 2) (k 3)

theorem mix_apply (x : FVec Ideal ⟨4, ![8, 2048, 4, 1024]⟩ .f32) (hres : FVec Ideal ⟨4, ![8, 2048, 4, 4]⟩ .f32)
    (hout : FVec Ideal ⟨3, ![8, 2048, 1024]⟩ .f32) (hpost : FVec Ideal ⟨3, ![8, 2048, 4]⟩ .f32)
    (b : Fin 8) (s : Fin 2048) (i : Fin 4) (d : Fin 1024) :
    mix x hres hout hpost (ix4 b s i d) = mixAt x hres hout hpost b s i d := rfl

end Cert.StreamMix

end
-- ==== Proof.RefIsMix.lean ====
/-
  The reference's result is the specification.

  Read one operation at a time, the reference's last stage at `(b, s, i, d)` is its batched product at that index — the
  sum over `j` of `h_res (b, s, i, j) · x (b, s, j, d)` — times `h_out` broadcast along the stream axis, read at
  `(b, s, d)`, plus `h_post` broadcast along the model axis, read at `(b, s, i)`, times `x (b, s, i, d)`. The four
  index computations below say where each operand is read; after them the two sides are the same term.
-/
import proofs.«101169_j17411797418162_1_alg».proof.Proof.Gen.ReferenceIdeal.Read
import proofs.«101169_j17411797418162_1_alg».proof.Proof.StreamMix

noncomputable section

open scoped BigOperators
open Idealize.ShloMosaic Idealize.ShloMosaic.ValueIdx

namespace Cert.ReferenceIdeal.RefMix

open Cert.ReferenceIdeal Cert.ReferenceIdeal.Read

/-- The batched product's left operand at output `(b, s, i, d)` and contraction coordinate `j` is read at `(b, s, i, j)`. -/
theorem left_at (b : Fin 8) (s : Fin 2048) (i : Fin 4) (d : Fin 1024) (j : Fin 4) :
    lidx_main_v0 (ix4 b s i d) j = ix4 b s i j :=
  funext fun a => Fin.ext (by match a with | ⟨0, _⟩ => rfl | ⟨1, _⟩ => rfl | ⟨2, _⟩ => rfl | ⟨3, _⟩ => rfl)

/-- Its right operand is read at `(b, s, j, d)`. -/
theorem right_at (b : Fin 8) (s : Fin 2048) (i : Fin 4) (d : Fin 1024) (j : Fin 4) :
    ridx_main_v0 (ix4 b s i d) j = ix4 b s j d :=
  funext fun a => Fin.ext (by match a with | ⟨0, _⟩ => rfl | ⟨1, _⟩ => rfl | ⟨2, _⟩ => rfl | ⟨3, _⟩ => rfl)

/-- The scale along the model axis, broadcast over the streams, is read at `(b, s, d)`. -/
theorem scale_at (b : Fin 8) (s : Fin 2048) (i : Fin 4) (d : Fin 1024) :
    idx_main_v1 (idx_main_v2 (ix4 b s i d)) = ix3 b s d :=
  funext fun a => Fin.ext (by match a with | ⟨0, _⟩ => rfl | ⟨1, _⟩ => rfl | ⟨2, _⟩ => rfl)

/-- The stream's own weight, broadcast over the model axis, is read at `(b, s, i)`. -/
theorem weight_at (b : Fin 8) (s : Fin 2048) (i : Fin 4) (d : Fin 1024) :
    idx_main_v4 (idx_main_v5 (ix4 b s i d)) = ix3 b s i :=
  funext fun a => Fin.ext (by match a with | ⟨0, _⟩ => rfl | ⟨1, _⟩ => rfl | ⟨2, _⟩ => rfl)

/-- The reference's last stage is `StreamMix.mix` of the four arguments. -/
theorem ref_is_mix (x0 : (⟨S8x2048x4x1024, .f32⟩ : BufTy).Contents (Elt Ideal)) (x1 : (⟨S8x2048x4x4, .f32⟩ : BufTy).Contents (Elt Ideal))
    (x2 : (⟨S8x2048x1024, .f32⟩ : BufTy).Contents (Elt Ideal)) (x3 : (⟨S8x2048x4, .f32⟩ : BufTy).Contents (Elt Ideal)) :
    val_main_v7 (F := Ideal) x0 x1 x2 x3 = Cert.StreamMix.mix x0 x1 x2 x3 := by
  funext k
  obtain ⟨b, s, i, d, rfl⟩ : ∃ (b : Fin 8) (s : Fin 2048) (i : Fin 4) (d : Fin 1024), k = ix4 b s i d :=
    ⟨k 0, k 1, k 2, k 3, eq_ix4 k⟩
  rw [val_main_v7_apply, val_main_v3_apply, val_main_v0_apply, val_main_v2_apply, val_main_v1_apply, val_main_v6_apply,
    val_main_v5_apply, val_main_v4_apply, Cert.StreamMix.mix_apply]
  unfold Cert.StreamMix.mixAt
  simp only [left_at, right_at, scale_at, weight_at]
  rfl

end Cert.ReferenceIdeal.RefMix

end
-- ==== Proof.BodyAtIndex.lean ====
/-
  The kernel's body at one index of the block it stores.

  A grid point's block of `x` is [1, 128, 4, 1024] (one batch entry, 128 positions), of `h_res` [1, 128, 4, 4], of `h_out`
  [1, 128, 1024] and of `h_post` [1, 128, 4]. With the unit axis dropped, the body multiplies each position's 4 × 4 matrix
  with that position's 4 × 1024 streams — a product batched over the position axis, contracting the matrix's columns
  with the stream axis, accumulated into zero —, scales the product by `h_out` laid along the stream axis, adds `h_post`
  laid along the model axis times the streams, and puts the unit axis back. Read at `(z, r, i, d)` of the stored block:

      (∑ j < 4, h_res (z, r, i, j) · x (z, r, j, d)) · h_out (z, r, d) + h_post (z, r, i) · x (z, r, i, d).

  The lemmas below read each re-laid operand at an index (equal row-major positions), the batched product as a sum over
  its one contracted coordinate, and then the whole body.
-/
import proofs.«101169_j17411797418162_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-! ## The operands with the unit axis dropped -/

/-- The streams' block without its unit axis, at `(r, i, d)`, is the block at `(z, r, i, d)`. -/
theorem streams_at (x0 : Vec Ideal S1x128x4x1024 .f32) (z : Fin 1) (r : Fin 128) (i : Fin 4) (d : Fin 1024) :
    shapeCast S128x4x1024 x0 shapeCasts_S1x128x4x1024_S128x4x1024 (ix3 r i d) = x0 (ix4 z r i d) := by
  refine shapeCast_apply _ _ (ix3 r i d) (ix4 z r i d) ?_
  rw [Shape.rowMajor_val_three, Shape.rowMajor_val_four]
  show ((z.val * 128 + r.val) * 4 + i.val) * 1024 + d.val = (r.val * 4 + i.val) * 1024 + d.val
  have := z.isLt
  omega

/-- The mixing matrices' block without its unit axis, at `(r, i, j)`, is the block at `(z, r, i, j)`. -/
theorem matrices_at (x1 : Vec Ideal S1x128x4x4 .f32) (z : Fin 1) (r : Fin 128) (i j : Fin 4) :
    shapeCast S128x4x4 x1 shapeCasts_S1x128x4x4_S128x4x4 (ix3 r i j) = x1 (ix4 z r i j) := by
  refine shapeCast_apply _ _ (ix3 r i j) (ix4 z r i j) ?_
  rw [Shape.rowMajor_val_three, Shape.rowMajor_val_four]
  show ((z.val * 128 + r.val) * 4 + i.val) * 4 + j.val = (r.val * 4 + i.val) * 4 + j.val
  have := z.isLt
  omega

/-! ## The scale and the weight, laid over the block -/

/-- The scale block [1, 128, 1024], viewed [128, 1024], then [128, 1, 1024], and repeated along the stream axis, at
    `(r, i, d)` is the block at `(z, r, d)`. -/
theorem scale_at (x2 : Vec Ideal S1x128x1024 .f32) (z : Fin 1) (r : Fin 128) (i : Fin 4) (d : Fin 1024) :
    broadcastTo S128x4x1024
      (shapeCast S128x1x1024 (shapeCast S128x1x1024 (shapeCast S128x1024 x2 shapeCasts_S1x128x1024_S128x1024) shapeCasts_S128x1024_S128x1x1024)
        shapeCasts_S128x1x1024_S128x1x1024) broadcasts_S128x1x1024_S128x4x1024 (ix3 r i d) = x2 (ix3 z r d) := by
  rw [shapeCast_self]
  refine (broadcastTo_apply _ _ (ix3 r i d) (ix3 r (0 : Fin 1) d) (fun a => ?_)).trans ?_
  · match a with
    | ⟨0, _⟩ => show r.val = if (128 : Nat) = 1 then 0 else r.val; rw [if_neg (by decide)]
    | ⟨1, _⟩ => show 0 = if (1 : Nat) = 1 then 0 else i.val; rw [if_pos rfl]
    | ⟨2, _⟩ => show d.val = if (1024 : Nat) = 1 then 0 else d.val; rw [if_neg (by decide)]
  refine (shapeCast_apply _ _ (ix3 r (0 : Fin 1) d) (ix2 r d) ?_).trans ?_
  · rw [Shape.rowMajor_val_two, Shape.rowMajor_val_three]
    show r.val * 1024 + d.val = (r.val * 1 + 0) * 1024 + d.val
    omega
  refine shapeCast_apply _ _ (ix2 r d) (ix3 z r d) ?_
  rw [Shape.rowMajor_val_two, Shape.rowMajor_val_three]
  show (z.val * 128 + r.val) * 1024 + d.val = r.val * 1024 + d.val
  have := z.isLt
  omega

/-- The weight block [1, 128, 4], viewed [128, 4], then [128, 4, 1], and repeated along the model axis, at `(r, i, d)` is
    the block at `(z, r, i)`. -/
theorem weight_at (x3 : Vec Ideal S1x128x4 .f32) (z : Fin 1) (r : Fin 128) (i : Fin 4) (d : Fin 1024) :
    broadcastTo S128x4x1024
      (shapeCast S128x4x1 (shapeCast S128x4x1 (shapeCast S128x4 x3 shapeCasts_S1x128x4_S128x4) shapeCasts_S128x4_S128x4x1)
        shapeCasts_S128x4x1_S128x4x1) broadcasts_S128x4x1_S128x4x1024 (ix3 r i d) = x3 (ix3 z r i) := by
  rw [shapeCast_self]
  refine (broadcastTo_apply _ _ (ix3 r i d) (ix3 r i (0 : Fin 1)) (fun a => ?_)).trans ?_
  · match a with
    | ⟨0, _⟩ => show r.val = if (128 : Nat) = 1 then 0 else r.val; rw [if_neg (by decide)]
    | ⟨1, _⟩ => show i.val = if (4 : Nat) = 1 then 0 else i.val; rw [if_neg (by decide)]
    | ⟨2, _⟩ => show 0 = if (1 : Nat) = 1 then 0 else d.val; rw [if_pos rfl]
  refine (shapeCast_apply _ _ (ix3 r i (0 : Fin 1)) (ix2 r i) ?_).trans ?_
  · rw [Shape.rowMajor_val_two, Shape.rowMajor_val_three]
    show r.val * 4 + i.val = (r.val * 4 + i.val) * 1 + 0
    omega
  refine shapeCast_apply _ _ (ix2 r i) (ix3 z r i) ?_
  rw [Shape.rowMajor_val_two, Shape.rowMajor_val_three]
  show (z.val * 128 + r.val) * 4 + i.val = r.val * 4 + i.val
  have := z.isLt
  omega

/-! ## The product batched over positions -/

theorem lhs_axis0 (k : S128x4x1024.Idx) (q : dot_S128x4x4_S128x4x1024_S128x4x1024_2_1_1_2_0_0.contr.Idx) :
    (dot_S128x4x4_S128x4x1024_S128x4x1024_2_1_1_2_0_0.lhsIdx k q 0).val = (k 0).val := by
  unfold DotDims.lhsIdx
  rw [dif_pos (show (0 : Fin S128x4x4.rank) ∈ dot_S128x4x4_S128x4x1024_S128x4x1024_2_1_1_2_0_0.lhsBatch by decide)]
  rfl
theorem lhs_axis1 (k : S128x4x1024.Idx) (q : dot_S128x4x4_S128x4x1024_S128x4x1024_2_1_1_2_0_0.contr.Idx) :
    (dot_S128x4x4_S128x4x1024_S128x4x1024_2_1_1_2_0_0.lhsIdx k q 1).val = (k 1).val := by
  unfold DotDims.lhsIdx
  rw [dif_neg (show ¬(1 : Fin S128x4x4.rank) ∈ dot_S128x4x4_S128x4x1024_S128x4x1024_2_1_1_2_0_0.lhsBatch by decide),
    dif_pos (show (1 : Fin S128x4x4.rank) ∈ dot_S128x4x4_S128x4x1024_S128x4x1024_2_1_1_2_0_0.lhsNonContracting by decide)]
  rfl
theorem lhs_axis2 (k : S128x4x1024.Idx) (q : dot_S128x4x4_S128x4x1024_S128x4x1024_2_1_1_2_0_0.contr.Idx) :
    (dot_S128x4x4_S128x4x1024_S128x4x1024_2_1_1_2_0_0.lhsIdx k q 2).val = (q ⟨0, by decide⟩).val :=
  dot_S128x4x4_S128x4x1024_S128x4x1024_2_1_1_2_0_0.lhsIdx_val_of_single rfl k q
theorem rhs_axis0 (k : S128x4x1024.Idx) (q : dot_S128x4x4_S128x4x1024_S128x4x1024_2_1_1_2_0_0.contr.Idx) :
    (dot_S128x4x4_S128x4x1024_S128x4x1024_2_1_1_2_0_0.rhsIdx k q 0).val = (k 0).val := by
  unfold DotDims.rhsIdx
  rw [dif_pos (show (0 : Fin S128x4x1024.rank) ∈ dot_S128x4x4_S128x4x1024_S128x4x1024_2_1_1_2_0_0.rhsBatch by decide)]
  rfl
theorem rhs_axis1 (k : S128x4x1024.Idx) (q : dot_S128x4x4_S128x4x1024_S128x4x1024_2_1_1_2_0_0.contr.Idx) :
    (dot_S128x4x4_S128x4x1024_S128x4x1024_2_1_1_2_0_0.rhsIdx k q 1).val = (q ⟨0, by decide⟩).val :=
  dot_S128x4x4_S128x4x1024_S128x4x1024_2_1_1_2_0_0.rhsIdx_val_of_single rfl k q
theorem rhs_axis2 (k : S128x4x1024.Idx) (q : dot_S128x4x4_S128x4x1024_S128x4x1024_2_1_1_2_0_0.contr.Idx) :
    (dot_S128x4x4_S128x4x1024_S128x4x1024_2_1_1_2_0_0.rhsIdx k q 2).val = (k 2).val := by
  unfold DotDims.rhsIdx
  rw [dif_neg (show ¬(2 : Fin S128x4x1024.rank) ∈ dot_S128x4x4_S128x4x1024_S128x4x1024_2_1_1_2_0_0.rhsBatch by decide),
    dif_pos (show (2 : Fin S128x4x1024.rank) ∈ dot_S128x4x4_S128x4x1024_S128x4x1024_2_1_1_2_0_0.rhsNonContracting by decide)]
  rfl

/-- Each position's matrix times that position's streams, accumulated into zero: at `(r, i, d)` the sum over the
    contracted coordinate `j` of `A (r, i, j) · B (r, j, d)`. -/
theorem product_at (A : FVec Ideal S128x4x4 .f32) (B : FVec Ideal S128x4x1024 .f32) (r : Fin 128) (i : Fin 4) (d : Fin 1024) :
    matmul dot_S128x4x4_S128x4x1024_S128x4x1024_2_1_1_2_0_0 none A B (constant S128x4x1024 .f32 0x00000000#32) (ix3 r i d)
      = ∑ j : Fin 4, A (ix3 r i j) * B (ix3 r j d) := by
  simp only [matmul]
  rw [Ideal.matmul_constant_zero_apply,
    ← Equiv.sum_comp (contrEquiv1 dot_S128x4x4_S128x4x1024_S128x4x1024_2_1_1_2_0_0 4 rfl rfl).symm]
  refine Finset.sum_congr rfl fun j _ => ?_
  have hj := contrEquiv1_symm_val dot_S128x4x4_S128x4x1024_S128x4x1024_2_1_1_2_0_0 4 rfl rfl j
  have el : dot_S128x4x4_S128x4x1024_S128x4x1024_2_1_1_2_0_0.lhsIdx (ix3 r i d)
      ((contrEquiv1 dot_S128x4x4_S128x4x1024_S128x4x1024_2_1_1_2_0_0 4 rfl rfl).symm j) = ix3 r i j :=
    funext fun a => Fin.ext (by
      match a with
      | ⟨0, _⟩ => exact lhs_axis0 _ _
      | ⟨1, _⟩ => exact lhs_axis1 _ _
      | ⟨2, _⟩ => exact (lhs_axis2 _ _).trans hj)
  have er : dot_S128x4x4_S128x4x1024_S128x4x1024_2_1_1_2_0_0.rhsIdx (ix3 r i d)
      ((contrEquiv1 dot_S128x4x4_S128x4x1024_S128x4x1024_2_1_1_2_0_0 4 rfl rfl).symm j) = ix3 r j d :=
    funext fun a => Fin.ext (by
      match a with
      | ⟨0, _⟩ => exact rhs_axis0 _ _
      | ⟨1, _⟩ => exact (rhs_axis1 _ _).trans hj
      | ⟨2, _⟩ => exact rhs_axis2 _ _)
  rw [el, er]

/-! ## The whole body -/

/-- What the body stores, at `(z, r, i, d)` of the block, from the four blocks it loads. -/
theorem body_at (x0 : Vec Ideal S1x128x4x1024 .f32) (x1 : Vec Ideal S1x128x4x4 .f32) (x2 : Vec Ideal S1x128x1024 .f32)
    (x3 : Vec Ideal S1x128x4 .f32) (z : Fin 1) (r : Fin 128) (i : Fin 4) (d : Fin 1024) :
    k0_pay1 (F := Ideal) x0 x1 x2 x3 (ix4 z r i d)
      = (∑ j : Fin 4, x1 (ix4 z r i j) * x0 (ix4 z r j d)) * x2 (ix3 z r d) + x3 (ix3 z r i) * x0 (ix4 z r i d) := by
  unfold k0_pay1
  refine (shapeCast_apply _ _ (ix4 z r i d) (ix3 r i d) ?_).trans ?_
  · rw [Shape.rowMajor_val_three, Shape.rowMajor_val_four]
    show (r.val * 4 + i.val) * 1024 + d.val = ((z.val * 128 + r.val) * 4 + i.val) * 1024 + d.val
    have := z.isLt
    omega
  rw [addf_apply, mulf_apply, mulf_apply, product_at, scale_at x2 z, weight_at x3 z, streams_at x0 z]
  simp only [matrices_at x1 z, streams_at x0 z]

end Cert.KernelIdeal.Body

end
-- ==== Proof.BlocksToArray.lean ====
/-
  From the blocks to the whole result array.

  The grid has 8 × 16 points; point `(bi, si)` works on batch entry `bi` and on the 128 sequence positions
  `128·si … 128·si + 127`, with every stream and every model coordinate. All five windows move together: at a point each
  window's block index is `(bi, si, 0[, 0])`. So what a point writes back — the body's value of that point's four input
  blocks — is the same point's block of ONE whole-array function, `StreamMix.mix` of the four argument arrays: each input
  block, read at a coordinate inside the block, is its argument array read at batch entry `bi` and position
  `128·si + r`. The 128 output blocks cover the result array (position `s` lies in the block with `si = s / 128`), so
  after the run the result array holds `StreamMix.mix` of the arguments everywhere.
-/
import proofs.«101169_j17411797418162_1_alg».proof.Proof.Gen.KernelIdeal.Value
import proofs.«101169_j17411797418162_1_alg».proof.Proof.BodyAtIndex
import proofs.«101169_j17411797418162_1_alg».proof.Proof.StreamMix
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-! ## Where the blocks lie -/

/-- The output's block index at a point is `(bi, si, 0, 0)` with `bi < 8` and `si < 16`. -/
theorem out_block : ∀ t : Fin cfg0.N,
    win0_4.index t (0 : Fin 4) < 8 ∧ win0_4.index t (1 : Fin 4) < 16 ∧ win0_4.index t (2 : Fin 4) = 0 ∧ win0_4.index t (3 : Fin 4) = 0 :=
  (by decide +kernel : ∀ t : Fin grid0.N, _)

/-- The streams' and the matrices' blocks sit at the output's batch entry and position block. -/
theorem rank4_blocks : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0 :=
  (by decide +kernel : ∀ t : Fin grid0.N, _)

/-- So do the scale's and the weight's blocks. -/
theorem rank3_blocks : ∀ t : Fin cfg0.N,
    win0_2.index t (0 : Fin 3) = win0_4.index t (0 : Fin 4) ∧ win0_2.index t (1 : Fin 3) = win0_4.index t (1 : Fin 4)
    ∧ win0_2.index t (2 : Fin 3) = 0
    ∧ win0_3.index t (0 : Fin 3) = win0_4.index t (0 : Fin 4) ∧ win0_3.index t (1 : Fin 3) = win0_4.index t (1 : Fin 4)
    ∧ win0_3.index t (2 : Fin 3) = 0 :=
  (by decide +kernel : ∀ t : Fin grid0.N, _)

/-- Every pair `(bi, si)` is some point's output block. -/
theorem onto_blocks : ∀ (q0 : Fin 8) (q1 : Fin 16), ∃ t : Fin cfg0.N, win0_4.index t = ![q0.val, q1.val, 0, 0] :=
  (by decide +kernel : ∀ (q0 : Fin 8) (q1 : Fin 16), ∃ t : Fin grid0.N, win0_4.index t = ![q0.val, q1.val, 0, 0])

/-! ## Each input block is its argument array at the point's batch entry and positions -/

/-- The streams' block at `y` is `x` at `k` when `k` is `y` moved to the point's batch entry and position block. -/
theorem streams_block (c : Dev nD) (t : Fin cfg0.N) (y : S1x128x4x1024.Idx) (k : S8x2048x4x1024.Idx)
    (h0 : (k 0).val = win0_4.index t (0 : Fin 4)) (h1 : (k 1).val = win0_4.index t (1 : Fin 4) * 128 + (y 1).val)
    (h2 : (k 2).val = (y 2).val) (h3 : (k 3).val = (y 3).val) :
    (iblk m c 0 t : Vec Ideal S1x128x4x1024 .f32) y = (V m c main_arg0 : S8x2048x4x1024.Idx → EReal) k := by
  obtain ⟨e0, e1, e2, e3, -⟩ := rank4_blocks t
  have hy0 : (y 0).val < 1 := (y 0).isLt
  unfold iblk
  rw [View.read_apply]
  show V m c main_arg0 _ = V m c main_arg0 _
  congr 1
  funext a
  apply Fin.ext
  match a with
  | ⟨0, _⟩ => show win0_0.index t (0 : Fin 4) * 1 + 1 * (y 0).val = (k 0).val; omega
  | ⟨1, _⟩ => show win0_0.index t (1 : Fin 4) * 128 + 1 * (y 1).val = (k 1).val; omega
  | ⟨2, _⟩ => show win0_0.index t (2 : Fin 4) * 4 + 1 * (y 2).val = (k 2).val; omega
  | ⟨3, _⟩ => show win0_0.index t (3 : Fin 4) * 1024 + 1 * (y 3).val = (k 3).val; omega

/-- The matrices' block likewise. -/
theorem matrices_block (c : Dev nD) (t : Fin cfg0.N) (y : S1x128x4x4.Idx) (k : S8x2048x4x4.Idx)
    (h0 : (k 0).val = win0_4.index t (0 : Fin 4)) (h1 : (k 1).val = win0_4.index t (1 : Fin 4) * 128 + (y 1).val)
    (h2 : (k 2).val = (y 2).val) (h3 : (k 3).val = (y 3).val) :
    (iblk m c 1 t : Vec Ideal S1x128x4x4 .f32) y = (V m c main_arg1 : S8x2048x4x4.Idx → EReal) k := by
  obtain ⟨-, -, -, -, e0, e1, e2, e3⟩ := rank4_blocks t
  have hy0 : (y 0).val < 1 := (y 0).isLt
  unfold iblk
  rw [View.read_apply]
  show V m c main_arg1 _ = V m c main_arg1 _
  congr 1
  funext a
  apply Fin.ext
  match a with
  | ⟨0, _⟩ => show win0_1.index t (0 : Fin 4) * 1 + 1 * (y 0).val = (k 0).val; omega
  | ⟨1, _⟩ => show win0_1.index t (1 : Fin 4) * 128 + 1 * (y 1).val = (k 1).val; omega
  | ⟨2, _⟩ => show win0_1.index t (2 : Fin 4) * 4 + 1 * (y 2).val = (k 2).val; omega
  | ⟨3, _⟩ => show win0_1.index t (3 : Fin 4) * 4 + 1 * (y 3).val = (k 3).val; omega

/-- The scale's block likewise. -/
theorem scale_block (c : Dev nD) (t : Fin cfg0.N) (y : S1x128x1024.Idx) (k : S8x2048x1024.Idx)
    (h0 : (k 0).val = win0_4.index t (0 : Fin 4)) (h1 : (k 1).val = win0_4.index t (1 : Fin 4) * 128 + (y 1).val)
    (h2 : (k 2).val = (y 2).val) :
    (iblk m c 2 t : Vec Ideal S1x128x1024 .f32) y = (V m c main_arg2 : S8x2048x1024.Idx → EReal) k := by
  obtain ⟨e0, e1, e2, -⟩ := rank3_blocks t
  have hy0 : (y 0).val < 1 := (y 0).isLt
  unfold iblk
  rw [View.read_apply]
  show V m c main_arg2 _ = V m c main_arg2 _
  congr 1
  funext a
  apply Fin.ext
  match a with
  | ⟨0, _⟩ => show win0_2.index t (0 : Fin 3) * 1 + 1 * (y 0).val = (k 0).val; omega
  | ⟨1, _⟩ => show win0_2.index t (1 : Fin 3) * 128 + 1 * (y 1).val = (k 1).val; omega
  | ⟨2, _⟩ => show win0_2.index t (2 : Fin 3) * 1024 + 1 * (y 2).val = (k 2).val; omega

/-- The weight's block likewise. -/
theorem weight_block (c : Dev nD) (t : Fin cfg0.N) (y : S1x128x4.Idx) (k : S8x2048x4.Idx)
    (h0 : (k 0).val = win0_4.index t (0 : Fin 4)) (h1 : (k 1).val = win0_4.index t (1 : Fin 4) * 128 + (y 1).val)
    (h2 : (k 2).val = (y 2).val) :
    (iblk m c 3 t : Vec Ideal S1x128x4 .f32) y = (V m c main_arg3 : S8x2048x4.Idx → EReal) k := by
  obtain ⟨-, -, -, e0, e1, e2⟩ := rank3_blocks t
  have hy0 : (y 0).val < 1 := (y 0).isLt
  unfold iblk
  rw [View.read_apply]
  show V m c main_arg3 _ = V m c main_arg3 _
  congr 1
  funext a
  apply Fin.ext
  match a with
  | ⟨0, _⟩ => show win0_3.index t (0 : Fin 3) * 1 + 1 * (y 0).val = (k 0).val; omega
  | ⟨1, _⟩ => show win0_3.index t (1 : Fin 3) * 128 + 1 * (y 1).val = (k 1).val; omega
  | ⟨2, _⟩ => show win0_3.index t (2 : Fin 3) * 4 + 1 * (y 2).val = (k 2).val; omega

/-! ## One point's value -/

/-- If four blocks are four arrays read at batch entry `b` and position `s` wherever the blocks are read at `(z, r)`,
    the body's value at `(z, r, i, d)` is the specification at `(b, s, i, d)`. -/
theorem point_value (X0 : FVec Ideal S8x2048x4x1024 .f32) (X1 : FVec Ideal S8x2048x4x4 .f32) (X2 : FVec Ideal S8x2048x1024 .f32)
    (X3 : FVec Ideal S8x2048x4 .f32) (x0 : Vec Ideal S1x128x4x1024 .f32) (x1 : Vec Ideal S1x128x4x4 .f32)
    (x2 : Vec Ideal S1x128x1024 .f32) (x3 : Vec Ideal S1x128x4 .f32)
    (b : Fin 8) (s : Fin 2048) (z : Fin 1) (r : Fin 128) (i : Fin 4) (d : Fin 1024)
    (h0 : ∀ j : Fin 4, x0 (ix4 z r j d) = X0 (ix4 b s j d))
    (h1 : ∀ j : Fin 4, x1 (ix4 z r i j) = X1 (ix4 b s i j))
    (h2 : x2 (ix3 z r d) = X2 (ix3 b s d))
    (h3 : x3 (ix3 z r i) = X3 (ix3 b s i)) :
    k0_pay1 (F := Ideal) x0 x1 x2 x3 (ix4 z r i d) = Cert.StreamMix.mixAt X0 X1 X2 X3 b s i d := by
  rw [Cert.KernelIdeal.Body.body_at]
  unfold Cert.StreamMix.mixAt
  simp only [h0, h1, h2, h3]

/-! ## What the result array ends holding -/

/-- The specification of the four argument arrays as the region finds them on core `c`. -/
abbrev target (c : Dev nD) : Buf (Elt Ideal) ((c : Thread nD τ).loc main_v0) :=
  Cert.StreamMix.mix (V m c main_arg0) (V m c main_arg1) (V m c main_arg2) (V m c main_arg3)

/-- What point `t` writes back is block `t` of `target`. -/
theorem flushed_eq (c : Dev nD) (t : Fin cfg0.N) :
    (dats m 0 c).flushed 4 t = ((cfg0.win 4).blk t).view.read (Elt Ideal) (target m c) := by
  rw [flushed4]
  unfold out0_4
  rw [View.canon_unit_zero zero4]
  simp only [View.ld_unit_zero (S := S1x128x4x1024) zero4, View.ld_unit_zero (S := S1x128x4x4) zero4,
    View.ld_unit_zero (S := S1x128x1024) zero3, View.ld_unit_zero (S := S1x128x4) zero3]
  obtain ⟨hb, hq, o2, o3⟩ := out_block t
  funext j
  have hj0 : (j 0).val < 1 := (j 0).isLt
  have hj1 : (j 1).val < 128 := (j 1).isLt
  have hj2 : (j 2).val < 4 := (j 2).isLt
  have hj3 : (j 3).val < 1024 := (j 3).isLt
  have ey : (cfg0.win 4).xinj (cfg0.grid.coords t) j
      = ix4 (⟨(j 0).val, hj0⟩ : Fin 1) (⟨(j 1).val, hj1⟩ : Fin 128) (⟨(j 2).val, hj2⟩ : Fin 4) (⟨(j 3).val, hj3⟩ : Fin 1024) :=
    funext fun a => Fin.ext (by match a with | ⟨0, _⟩ => rfl | ⟨1, _⟩ => rfl | ⟨2, _⟩ => rfl | ⟨3, _⟩ => rfl)
  have ek : ((cfg0.win 4).blk t).view.emb j
      = ix4 (⟨win0_4.index t (0 : Fin 4), hb⟩ : Fin 8) (⟨win0_4.index t (1 : Fin 4) * 128 + (j 1).val, by omega⟩ : Fin 2048)
          (⟨(j 2).val, hj2⟩ : Fin 4) (⟨(j 3).val, hj3⟩ : Fin 1024) :=
    funext fun a => Fin.ext (by
      match a with
      | ⟨0, _⟩ => show win0_4.index t (0 : Fin 4) * 1 + 1 * (j 0).val = win0_4.index t (0 : Fin 4); omega
      | ⟨1, _⟩ => show win0_4.index t (1 : Fin 4) * 128 + 1 * (j 1).val = win0_4.index t (1 : Fin 4) * 128 + (j 1).val; omega
      | ⟨2, _⟩ => show win0_4.index t (2 : Fin 4) * 4 + 1 * (j 2).val = (j 2).val; omega
      | ⟨3, _⟩ => show win0_4.index t (3 : Fin 4) * 1024 + 1 * (j 3).val = (j 3).val; omega)
  show k0_pay1 (F := Ideal) (iblk m c 0 t) (iblk m c 1 t) (iblk m c 2 t) (iblk m c 3 t) ((cfg0.win 4).xinj (cfg0.grid.coords t) j)
    = Cert.StreamMix.mix (V m c main_arg0) (V m c main_arg1) (V m c main_arg2) (V m c main_arg3) (((cfg0.win 4).blk t).view.emb j)
  rw [ey, ek, Cert.StreamMix.mix_apply]
  exact point_value (V m c main_arg0) (V m c main_arg1) (V m c main_arg2) (V m c main_arg3)
    (iblk m c 0 t) (iblk m c 1 t) (iblk m c 2 t) (iblk m c 3 t) _ _ _ _ _ _
    (fun _ => streams_block m c t _ _ rfl rfl rfl rfl) (fun _ => matrices_block m c t _ _ rfl rfl rfl rfl)
    (scale_block m c t _ _ rfl rfl rfl) (weight_block m c t _ _ rfl rfl rfl)

/-- An index of the result array is in point `t`'s block iff each coordinate is in the block's range on its axis. -/
theorem mem_block (t : Fin cfg0.N) (k : S8x2048x4x1024.Idx) :
    k ∈ ((cfg0.win 4).blk t).view.set ↔ ∀ a : Fin 4, win0_4.index t a * S1x128x4x1024.size a ≤ (k a).val
      ∧ (k a).val < win0_4.index t a * S1x128x4x1024.size a + S1x128x4x1024.size a := by
  show k ∈ ((View.whole main_v0).slice (win0_4.rect t)).set ↔ _
  rw [View.set_slice_whole, Rect.mem_set_unit]
  exact Iff.rfl

/-- Every index of the result array lies in some point's block: batch entry `k 0`, position block `k 1 / 128`. -/
theorem covered (k : S8x2048x4x1024.Idx) :
    ∃ t : Fin cfg0.N, (cfg0.win 4).flush t = true ∧ k ∈ ((cfg0.win 4).blk t).view.set := by
  have h0 : (k 0).val < 8 := (k 0).isLt
  have h1 : (k 1).val < 2048 := (k 1).isLt
  have h2 : (k 2).val < 4 := (k 2).isLt
  have h3 : (k 3).val < 1024 := (k 3).isLt
  obtain ⟨t, ht⟩ := onto_blocks ⟨(k 0).val, h0⟩ ⟨(k 1).val / 128, by omega⟩
  have q0 : win0_4.index t (0 : Fin 4) = (k 0).val := congrFun ht 0
  have q1 : win0_4.index t (1 : Fin 4) = (k 1).val / 128 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (k 0).val ∧ (k 0).val < win0_4.index t (0 : Fin 4) * 1 + 1; omega
  | ⟨1, _⟩ => show win0_4.index t (1 : Fin 4) * 128 ≤ (k 1).val ∧ (k 1).val < win0_4.index t (1 : Fin 4) * 128 + 128; omega
  | ⟨2, _⟩ => show win0_4.index t (2 : Fin 4) * 4 ≤ (k 2).val ∧ (k 2).val < win0_4.index t (2 : Fin 4) * 4 + 4; omega
  | ⟨3, _⟩ => show win0_4.index t (3 : Fin 4) * 1024 ≤ (k 3).val ∧ (k 3).val < win0_4.index t (3 : Fin 4) * 1024 + 1024; omega

/-- After all 128 points the result array holds `target`. -/
theorem final (c : Dev nD) : (dats m 0 c).arrAt 4 cfg0.N = target m c :=
  (dats m 0 c).arrAt_eq_of_cover 4 (target m c) (fun t _ => flushed_eq m c t) covered

/-- The run: the result array at the specification of the arguments, the arguments unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelIdeal.Whole

end
-- ==== Proof.lean ====
/-
  The proof of `Cert.Claim`: a kernel that, for every batch entry and sequence position, mixes four streams of
  x : f32[8, 2048, 4, 1024] by that position's 4 × 4 matrix from h_res, scales the mix along the model axis by h_out and adds the
  position's own streams weighted by h_post, against the same formula written with `einsum` and broadcasts.

  Both programs compute, at `(b, s, i, d)`,

      (∑ j < 4, h_res (b, s, i, j) · x (b, s, j, d)) · h_out (b, s, d) + h_post (b, s, i) · x (b, s, i, d)

  on the extended reals (Proof/StreamMix.lean). The reference's stages read at an index give it directly
  (Proof/RefIsMix.lean). The kernel's body gives it on each 128-position block (Proof/BodyAtIndex.lean: the product batched
  over positions into a zero accumulator is the sum over the contracted coordinate; the re-laid scale and weight are read
  at equal row-major positions), and the 128 blocks tile the result array (Proof/BlocksToArray.lean). Both sides have the same
  arrangement of sums and products, so no distributivity or cancellation is needed and the inputs' finiteness is not used.
  The three frames are the programs' runs with the results dropped; the idealization rewrote nothing, so `preserves` is
  `True`.
-/
import proofs.«101169_j17411797418162_1_alg».proof.Defs
import proofs.«101169_j17411797418162_1_alg».proof.Proof.Gen.Kernel
import proofs.«101169_j17411797418162_1_alg».proof.Proof.Gen.Kernel.Skeleton
import proofs.«101169_j17411797418162_1_alg».proof.Proof.Gen.Kernel.Launch
import proofs.«101169_j17411797418162_1_alg».proof.Proof.Gen.Kernel.Points
import proofs.«101169_j17411797418162_1_alg».proof.Proof.Gen.Kernel.Frame
import proofs.«101169_j17411797418162_1_alg».proof.Proof.Gen.KernelIdeal
import proofs.«101169_j17411797418162_1_alg».proof.Proof.Gen.KernelIdeal.Skeleton
import proofs.«101169_j17411797418162_1_alg».proof.Proof.Gen.KernelIdeal.Launch
import proofs.«101169_j17411797418162_1_alg».proof.Proof.Gen.KernelIdeal.Points
import proofs.«101169_j17411797418162_1_alg».proof.Proof.Gen.KernelIdeal.Frame
import proofs.«101169_j17411797418162_1_alg».proof.Proof.Gen.ReferenceIdeal
import proofs.«101169_j17411797418162_1_alg».proof.Proof.Gen.Pre_finite_inputs
import proofs.«101169_j17411797418162_1_alg».proof.Proof.Gen.KernelIdeal.Value
import proofs.«101169_j17411797418162_1_alg».proof.Proof.Gen.ReferenceIdeal.Run
import proofs.«101169_j17411797418162_1_alg».proof.Proof.Gen.ReferenceIdeal.Read
import proofs.«101169_j17411797418162_1_alg».proof.Proof.StreamMix
import proofs.«101169_j17411797418162_1_alg».proof.Proof.RefIsMix
import proofs.«101169_j17411797418162_1_alg».proof.Proof.BodyAtIndex
import proofs.«101169_j17411797418162_1_alg».proof.Proof.BlocksToArray
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at `StreamMix.mix` of the
    arguments: the kernel block by block, the reference stage by stage. -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefMix.ref_is_mix,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
